-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x2049 : Shape := ⟨3, ![16384, 2, 2049]⟩
abbrev S1024x2049 : Shape := ⟨2, ![1024, 2049]⟩
abbrev S_ : Shape := ⟨0, ![]⟩

class Facts : Prop where
  bcast_S_S16384x2x2049 : S_.BroadcastsInDim S16384x2x2049 (![] : Fin 0 → Fin S16384x2x2049.rank)
  reducesTo_S16384x2x2049_S_d0_1_2 : S16384x2x2049.ReducesTo [0, 1, 2] S_
  h_S_ : 0 < S_.numel
  bcast_S_S1024x2049 : S_.BroadcastsInDim S1024x2049 (![] : Fin 0 → Fin S1024x2049.rank)
  reducesTo_S1024x2049_S_d0_1 : S1024x2049.ReducesTo [0, 1] S_

variable [Facts]

def fn {F : FTy → Type} [FloatOps F] (main_arg0 : FVec F S16384x2x2049 .f32) (main_arg1 : FVec F S1024x2049 .f32) (main_arg2 : FVec F S1024x2049 .f32) : IVec S_ 1 :=
  let main_v0 : FVec F S16384x2x2049 .f32 := Host.absf main_arg0
  let main_cst : FVec F S_ .f32 := constant S_ .f32 0x7F800000#32
  let main_v1 : FVec F S16384x2x2049 .f32 := broadcastInDim S16384x2x2049 ![] bcast_S_S16384x2x2049 main_cst
  let main_v2 : IVec S16384x2x2049 1 := cmpf .olt main_v0 main_v1
  let main_c : IVec S_ 1 := constantI S_ 1 1#1
  let main_v3 : IVec S_ 1 := (fun x v => Host.reduce IntOp.andi x v reducesTo_S16384x2x2049_S_d0_1_2 h_S_) main_v2 main_c
  let main_v4 : FVec F S1024x2049 .f32 := Host.absf main_arg1
  let main_cst_0 : FVec F S_ .f32 := constant S_ .f32 0x7F800000#32
  let main_v5 : FVec F S1024x2049 .f32 := broadcastInDim S1024x2049 ![] bcast_S_S1024x2049 main_cst_0
  let main_v6 : IVec S1024x2049 1 := cmpf .olt main_v4 main_v5
  let main_c_1 : IVec S_ 1 := constantI S_ 1 1#1
  let main_v7 : IVec S_ 1 := (fun x v => Host.reduce IntOp.andi x v reducesTo_S1024x2049_S_d0_1 h_S_) main_v6 main_c_1
  let main_v8 : IVec S_ 1 := andi main_v3 main_v7
  let main_v9 : FVec F S1024x2049 .f32 := Host.absf main_arg2
  let main_cst_2 : FVec F S_ .f32 := constant S_ .f32 0x7F800000#32
  let main_v10 : FVec F S1024x2049 .f32 := broadcastInDim S1024x2049 ![] bcast_S_S1024x2049 main_cst_2
  let main_v11 : IVec S1024x2049 1 := cmpf .olt main_v9 main_v10
  let main_c_3 : IVec S_ 1 := constantI S_ 1 1#1
  let main_v12 : IVec S_ 1 := (fun x v => Host.reduce IntOp.andi x v reducesTo_S1024x2049_S_d0_1 h_S_) main_v11 main_c_3
  let main_v13 : IVec S_ 1 := andi main_v8 main_v12
  main_v13
-- ==== Kernel.lean ====
abbrev S16384x2x2049 : Shape := ⟨3, ![16384, 2, 2049]⟩
abbrev S1024x2049 : Shape := ⟨2, ![1024, 2049]⟩
abbrev S16384x1x2049 : Shape := ⟨3, ![16384, 1, 2049]⟩
abbrev S16384x2049 : Shape := ⟨2, ![16384, 2049]⟩
abbrev S16384x1024 : Shape := ⟨2, ![16384, 1024]⟩
abbrev S256x2049 : Shape := ⟨2, ![256, 2049]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S16384x2x2049, .f32⟩
  | .hbm, ⟨1, _⟩ => ⟨S1024x2049, .f32⟩
  | .hbm, ⟨2, _⟩ => ⟨S1024x2049, .f32⟩
  | .hbm, ⟨3, _⟩ => ⟨S16384x1x2049, .f32⟩
  | .hbm, ⟨4, _⟩ => ⟨S16384x2049, .f32⟩
  | .hbm, ⟨5, _⟩ => ⟨S16384x1x2049, .f32⟩
  | .hbm, ⟨6, _⟩ => ⟨S16384x2049, .f32⟩
  | .hbm, ⟨7, _⟩ => ⟨S1024x2049, .f32⟩
  | .hbm, ⟨8, _⟩ => ⟨S1024x2049, .bf16⟩
  | .hbm, ⟨9, _⟩ => ⟨S1024x2049, .f32⟩
  | .hbm, ⟨10, _⟩ => ⟨S1024x2049, .bf16⟩
  | .hbm, ⟨11, _⟩ => ⟨S16384x1024, .f32⟩
  | .local _ .vmem, ⟨0, _⟩ => ⟨S256x2049, .f32⟩
  | .local _ .vmem, ⟨1, _⟩ => ⟨S256x2049, .f32⟩
  | .local _ .vmem, ⟨2, _⟩ => ⟨S256x2049, .f32⟩
  | .local _ .vmem, ⟨3, _⟩ => ⟨S256x2049, .f32⟩
  | .local _ .vmem, ⟨4, _⟩ => ⟨S1024x2049, .bf16⟩
  | .local _ .vmem, ⟨5, _⟩ => ⟨S1024x2049, .bf16⟩
  | .local _ .vmem, ⟨6, _⟩ => ⟨S256x1024, .f32⟩
  | .local _ .vmem, ⟨7, _⟩ => ⟨S256x1024, .f32⟩
  | _, _ => ⟨S16384x2x2049, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2049 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2049 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2049 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2049 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16384x2x2049_S16384x1x2049_0_0_0 : S16384x2x2049.Slices ![0, 0, 0] S16384x1x2049
  shapeCasts_S16384x1x2049_S16384x2049 : S16384x1x2049.ShapeCasts S16384x2049
  slices_S16384x2x2049_S16384x1x2049_0_1_0 : S16384x2x2049.Slices ![0, 1, 0] S16384x1x2049
  bitsLt_bf16_f32 : FTy.bits .bf16 < FTy.bits .f32
  inb_S256x2049_S256x2049_0_0 : ∀ a, (![0, 0] : Fin 2 → Nat) a + S256x2049.size a ≤ S256x2049.size a
  h_S256x2049 : 0 < S256x2049.numel
  shapeCasts_S256x2049_S256x2049 : S256x2049.ShapeCasts S256x2049
  inb_S1024x2049_S1024x2049_0_0 : ∀ a, (![0, 0] : Fin 2 → Nat) a + S1024x2049.size a ≤ S1024x2049.size a
  h_S1024x2049 : 0 < S1024x2049.numel
  shapeCasts_S1024x2049_S1024x2049 : S1024x2049.ShapeCasts S1024x2049
  inb_S256x1024_S256x1024_0_0 : ∀ a, (![0, 0] : Fin 2 → Nat) a + S256x1024.size a ≤ S256x1024.size a
  h_S256x1024 : 0 < S256x1024.numel
  dot_S256x2049_S1024x2049_S256x1024_1_1_0_0_n_n_wf : DotDims.WF S256x2049 S1024x2049 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2049.size a ≤ S16384x2049.size a
  hwx0_0 : ∀ i : grid0.Coords, EltTy.bits .f32 = 32 ∨ (Rect.block (s := S16384x2049) S256x2049.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2049.size a ≤ S16384x2049.size a
  hwx0_1 : ∀ i : grid0.Coords, EltTy.bits .f32 = 32 ∨ (Rect.block (s := S16384x2049) S256x2049.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2049.size a ≤ S1024x2049.size a
  hwx0_2 : ∀ i : grid0.Coords, EltTy.bits .bf16 = 32 ∨ (Rect.block (s := S1024x2049) S1024x2049.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2049.size a ≤ S1024x2049.size a
  hwx0_3 : ∀ i : grid0.Coords, EltTy.bits .bf16 = 32 ∨ (Rect.block (s := S1024x2049) S1024x2049.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)

variable [Facts₀]

def dot_S256x2049_S1024x2049_S256x1024_1_1_0_0_n_n : DotDims S256x2049 S1024x2049 S256x1024 where
  lhsContracting := [1]
  rhsContracting := [1]
  lhsNonContracting := [0]
  rhsNonContracting := [0]
  lhsBatch := []
  rhsBatch := []
  wf := dot_S256x2049_S1024x2049_S256x1024_1_1_0_0_n_n_wf

abbrev win0_0 : Pipeline.Window sig grid0 :=
  Pipeline.Window.ofSpec (Memref.whole main_v1) S256x2049.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x2049.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x2049.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x2049.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2x2049 : Shape := ⟨3, ![16384, 2, 2049]⟩
abbrev S1024x2049 : Shape := ⟨2, ![1024, 2049]⟩
abbrev S16384x1x2049 : Shape := ⟨3, ![16384, 1, 2049]⟩
abbrev S16384x2049 : Shape := ⟨2, ![16384, 2049]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2x2049, .f32⟩
  | .hbm, ⟨1, _⟩ => ⟨S1024x2049, .f32⟩
  | .hbm, ⟨2, _⟩ => ⟨S1024x2049, .f32⟩
  | .hbm, ⟨3, _⟩ => ⟨S16384x1x2049, .f32⟩
  | .hbm, ⟨4, _⟩ => ⟨S16384x2049, .f32⟩
  | .hbm, ⟨5, _⟩ => ⟨S16384x1x2049, .f32⟩
  | .hbm, ⟨6, _⟩ => ⟨S16384x2049, .f32⟩
  | .hbm, ⟨7, _⟩ => ⟨S1024x2049, .f32⟩
  | .hbm, ⟨8, _⟩ => ⟨S1024x2049, .f32⟩
  | .hbm, ⟨9, _⟩ => ⟨S16384x1024, .f32⟩
  | .hbm, ⟨10, _⟩ => ⟨S16384x1024, .f32⟩
  | .hbm, ⟨11, _⟩ => ⟨S16384x1024, .f32⟩
  | _, _ => ⟨S16384x2x2049, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S16384x2x2049_S16384x1x2049_0_0_0 : S16384x2x2049.Slices ![0, 0, 0] S16384x1x2049
  shapeCasts_S16384x1x2049_S16384x2049 : S16384x1x2049.ShapeCasts S16384x2049
  slices_S16384x2x2049_S16384x1x2049_0_1_0 : S16384x2x2049.Slices ![0, 1, 0] S16384x1x2049
  dot_S16384x2049_S1024x2049_S16384x1024_1_1_0_0_n_n_wf : DotDims.WF S16384x2049 S1024x2049 S16384x1024 [1] [1] [0] [0] [] []

variable [Facts₀]

def dot_S16384x2049_S1024x2049_S16384x1024_1_1_0_0_n_n : DotDims S16384x2049 S1024x2049 S16384x1024 where
  lhsContracting := [1]
  rhsContracting := [1]
  lhsNonContracting := [0]
  rhsNonContracting := [0]
  lhsBatch := []
  rhsBatch := []
  wf := dot_S16384x2049_S1024x2049_S16384x1024_1_1_0_0_n_n_wf

class Facts : Prop extends Facts₀ where

variable [Facts]
-- ==== Proof.Energy.lean ====
/-
  The quantity both programs compute.  The input holds, for each of 16384 batch rows, two channels of
  2049 frequencies (the real and the imaginary part of a spectrum); two filter matrices of 1024 output
  channels by 2049 frequencies weigh them.  For a batch row `b` and an output channel `o`

      energy b o  =  Σ_k xr[b,k] · wr[o,k]  +  Σ_k xi[b,k] · wi[o,k],

  two inner products over the frequency axis, one per channel, added.  Over the extended reals both
  programs form exactly these two sums of products in exactly this arrangement, so nothing beyond the
  definition is needed to compare them: no term is moved across a sum and no factor is cancelled, and the
  statement therefore holds at infinite entries as well.

  The number of rows is a parameter because the same expression is read once over the whole input
  (16384 rows) and once over the 256 rows of one batch tile.
-/
import Idealize.ShloMosaic.Lib.ValueIdx

noncomputable section

open scoped BigOperators

namespace Cert.Energy

open Idealize.ShloMosaic Idealize.ShloMosaic.ValueIdx

/-- The inner product, over the 2049 frequencies, of row `b` of a matrix of `R` rows with row `o` of a
    filter matrix of 1024 rows. -/
def rowDot {R : Nat} (x : (⟨2, ![R, 2049]⟩ : Shape).Idx → EReal) (w : (⟨2, ![1024, 2049]⟩ : Shape).Idx → EReal)
    (b : Fin R) (o : Fin 1024) : EReal :=
  ∑ k : Fin 2049, x (ix2 b k) * w (ix2 o k)

/-- The energy of every (row, output channel) pair: the real channel against its filter plus the imaginary
    channel against its filter. -/
def energy {R : Nat} (xr xi : (⟨2, ![R, 2049]⟩ : Shape).Idx → EReal) (wr wi : (⟨2, ![1024, 2049]⟩ : Shape).Idx → EReal) :
    (⟨2, ![R, 1024]⟩ : Shape).Idx → EReal :=
  fun i => rowDot xr wr (i 0) (i 1) + rowDot xi wi (i 0) (i 1)

/-- The energy at a pair given by its two coordinates. -/
theorem energy_ix2 {R : Nat} (xr xi : (⟨2, ![R, 2049]⟩ : Shape).Idx → EReal) (wr wi : (⟨2, ![1024, 2049]⟩ : Shape).Idx → EReal)
    (b : Fin R) (o : Fin 1024) :
    energy xr xi wr wi (ix2 b o) = rowDot xr wr b o + rowDot xi wi b o := rfl

/-- An inner product depends only on the two rows it reads: if row `p` of a tile is row `b` of the whole
    matrix, frequency by frequency, and the filter rows agree likewise, the inner products agree. -/
theorem rowDot_congr {R R' : Nat} (x : (⟨2, ![R, 2049]⟩ : Shape).Idx → EReal) (x' : (⟨2, ![R', 2049]⟩ : Shape).Idx → EReal)
    (w w' : (⟨2, ![1024, 2049]⟩ : Shape).Idx → EReal) (p : Fin R) (b : Fin R') (o o' : Fin 1024)
    (hx : ∀ k : Fin 2049, x (ix2 p k) = x' (ix2 b k)) (hw : ∀ k : Fin 2049, w (ix2 o k) = w' (ix2 o' k)) :
    rowDot x w p o = rowDot x' w' b o' := by
  unfold rowDot
  exact Finset.sum_congr rfl fun k _ => by rw [hx k, hw k]

end Cert.Energy

end
-- ==== Proof.KernelTile.lean ====
/-
  One batch tile of the kernel, entry by entry.  The body loads the tile's 256 rows of each channel and the
  two filter matrices whole, narrows the rows to the filters' format (the identity over the extended
  reals), multiplies each channel by its filter matrix contracting the frequency axis of both operands
  into an accumulator that starts at zero, and adds the two products.  So the entry at tile row `p` and
  output channel `o` of what it stores is the inner product of row `p` of the real channel with row `o`
  of its filter, plus the same for the imaginary channel.
-/
import proofs.«173870_j86904368267649_1_alg».proof.Proof.Gen.KernelIdeal.Skeleton
import proofs.«173870_j86904368267649_1_alg».proof.Proof.Energy
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## Which entries of its operands a product entry reads

The product contracts axis 1 of both operands and keeps axis 0 of each: entry (p, o) reads row `p` of the
left operand and row `o` of the right, both at the contracted frequency. -/

theorem lhs_row (i : S256x1024.Idx) (q : dot_S256x2049_S1024x2049_S256x1024_1_1_0_0_n_n.contr.Idx) :
    (dot_S256x2049_S1024x2049_S256x1024_1_1_0_0_n_n.lhsIdx i q 0).val = (i 0).val := by
  unfold DotDims.lhsIdx
  rw [dif_neg (show ¬(0 : Fin S256x2049.rank) ∈ dot_S256x2049_S1024x2049_S256x1024_1_1_0_0_n_n.lhsBatch by decide), dif_pos (show (0 : Fin S256x2049.rank) ∈ dot_S256x2049_S1024x2049_S256x1024_1_1_0_0_n_n.lhsNonContracting by decide)]
  rfl
theorem lhs_freq (i : S256x1024.Idx) (q : dot_S256x2049_S1024x2049_S256x1024_1_1_0_0_n_n.contr.Idx) :
    (dot_S256x2049_S1024x2049_S256x1024_1_1_0_0_n_n.lhsIdx i q 1).val = (q ⟨0, by decide⟩).val :=
  dot_S256x2049_S1024x2049_S256x1024_1_1_0_0_n_n.lhsIdx_val_of_single rfl i q
theorem rhs_row (i : S256x1024.Idx) (q : dot_S256x2049_S1024x2049_S256x1024_1_1_0_0_n_n.contr.Idx) :
    (dot_S256x2049_S1024x2049_S256x1024_1_1_0_0_n_n.rhsIdx i q 0).val = (i 1).val := by
  unfold DotDims.rhsIdx
  rw [dif_neg (show ¬(0 : Fin S1024x2049.rank) ∈ dot_S256x2049_S1024x2049_S256x1024_1_1_0_0_n_n.rhsBatch by decide), dif_pos (show (0 : Fin S1024x2049.rank) ∈ dot_S256x2049_S1024x2049_S256x1024_1_1_0_0_n_n.rhsNonContracting by decide)]
  rfl
theorem rhs_freq (i : S256x1024.Idx) (q : dot_S256x2049_S1024x2049_S256x1024_1_1_0_0_n_n.contr.Idx) :
    (dot_S256x2049_S1024x2049_S256x1024_1_1_0_0_n_n.rhsIdx i q 1).val = (q ⟨0, by decide⟩).val :=
  dot_S256x2049_S1024x2049_S256x1024_1_1_0_0_n_n.rhsIdx_val_of_single rfl i q

/-- A product into a zero accumulator, at entry (p, o): the inner product of row `p` of the left operand
    with row `o` of the right one over the 2049 frequencies. -/
theorem product_entry (l : FVec Ideal S256x2049 .bf16) (r : FVec Ideal S1024x2049 .bf16) (p : Fin 256) (o : Fin 1024) :
    matmul (F := Ideal) dot_S256x2049_S1024x2049_S256x1024_1_1_0_0_n_n none l r (constant (F := Ideal) S256x1024 .f32 0x00000000#32) (ix2 p o)
      = Cert.Energy.rowDot (R := 256) l r p o := by
  unfold Cert.Energy.rowDot
  refine (Ideal.matmul_constant_zero_apply dot_S256x2049_S1024x2049_S256x1024_1_1_0_0_n_n none l r (ix2 p o)).trans ?_
  rw [← Equiv.sum_comp (contrEquiv1 dot_S256x2049_S1024x2049_S256x1024_1_1_0_0_n_n 2049 rfl rfl).symm]
  refine Finset.sum_congr rfl fun k _ => ?_
  have hk := contrEquiv1_symm_val dot_S256x2049_S1024x2049_S256x1024_1_1_0_0_n_n 2049 rfl rfl k
  have el : dot_S256x2049_S1024x2049_S256x1024_1_1_0_0_n_n.lhsIdx (ix2 p o) ((contrEquiv1 dot_S256x2049_S1024x2049_S256x1024_1_1_0_0_n_n 2049 rfl rfl).symm k) = ix2 p k := funext fun a => Fin.ext (by
    match a with
    | ⟨0, _⟩ => exact lhs_row _ _
    | ⟨1, _⟩ => exact (lhs_freq _ _).trans hk)
  have er : dot_S256x2049_S1024x2049_S256x1024_1_1_0_0_n_n.rhsIdx (ix2 p o) ((contrEquiv1 dot_S256x2049_S1024x2049_S256x1024_1_1_0_0_n_n 2049 rfl rfl).symm k) = ix2 o k := funext fun a => Fin.ext (by
    match a with
    | ⟨0, _⟩ => exact rhs_row _ _
    | ⟨1, _⟩ => exact (rhs_freq _ _).trans hk)
  rw [el, er]

/-- What the body stores, at tile row `p` and output channel `o`, from the four blocks it loads. -/
theorem stored_entry (x0 x1 : Vec Ideal S256x2049 .f32) (x2 x3 : Vec Ideal S1024x2049 .bf16) (p : Fin 256) (o : Fin 1024) :
    k0_pay1 (F := Ideal) x0 x1 x2 x3 (ix2 p o)
      = Cert.Energy.rowDot (R := 256) x0 x2 p o + Cert.Energy.rowDot (R := 256) x1 x3 p o := by
  unfold k0_pay1
  simp only [shapeCast_self]
  refine (addf_apply _ _ _).trans ?_
  rw [product_entry, product_entry]
  rfl

end Cert.KernelIdeal.Tile

end
-- ==== Proof.KernelWhole.lean ====
/-
  The kernel's whole result.  The grid has 64 points; point `t` works on batch rows 256·t … 256·t + 255.
  Its two channel windows show it those 256 rows of each channel (all 2049 frequencies), its two filter
  windows show every point the whole filter matrices, and its output window is rows 256·t … 256·t + 255 of
  the result (all 1024 output channels).  So what point `t` writes back is the energy restricted to its
  rows; the 64 row ranges tile the 16384 rows; and the result array ends holding the energy of the four
  matrices the region finds.  Those four are made from the launch arguments before the region starts: the
  two channels are cut out of the input and flattened, and the filters are the sum and the difference of
  the two filter arguments (the narrowing to the kernel's filter format is the identity over the extended
  reals).
-/
import proofs.«173870_j86904368267649_1_alg».proof.Proof.Gen.KernelIdeal.Value
import proofs.«173870_j86904368267649_1_alg».proof.Proof.KernelTile
import proofs.«173870_j86904368267649_1_alg».proof.Proof.Energy
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point `t`, decided over the 64 points: the channel windows and the
    output window are at block row `t`, block column 0; the filter windows are always at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What one point writes back -/

/-- Point `t` writes back rows 256·t … 256·t + 255 of the energy of the four matrices the region finds. -/
theorem written_back (c : Dev nD) (t : Fin cfg0.N) :
    (dats m 0 c).flushed 4 t = ((cfg0.win 4).blk t).view.read (Elt Ideal)
      (Cert.Energy.energy (R := 16384) (V m c main_v1) (V m c main_v3) (V m c main_v5) (V m c main_v7)) := by
  rw [Cert.KernelIdeal.Value.flushed4]
  unfold out0_4
  rw [View.canon_unit_zero origin]
  simp only [View.ld_unit_zero (S := S256x2049) origin, View.ld_unit_zero (S := S1024x2049) origin]
  obtain ⟨e00, e01, e10, e11, e20, e21, e30, e31, e40, e41⟩ := block_index t
  funext j
  obtain ⟨p, o, rfl⟩ : ∃ (p : Fin 256) (o : Fin 1024), j = ix2 p o := ⟨j 0, j 1, eq_ix2 j⟩
  show k0_pay1 (F := Ideal) (iblk m c 0 t) (iblk m c 1 t) (iblk m c 2 t) (iblk m c 3 t) (ix2 p o)
    = Cert.Energy.rowDot (R := 16384) (V m c main_v1) (V m c main_v5) ((((cfg0.win 4).blk t).view.emb (ix2 p o)) 0) ((((cfg0.win 4).blk t).view.emb (ix2 p o)) 1)
      + Cert.Energy.rowDot (R := 16384) (V m c main_v3) (V m c main_v7) ((((cfg0.win 4).blk t).view.emb (ix2 p o)) 0) ((((cfg0.win 4).blk t).view.emb (ix2 p o)) 1)
  refine (Cert.KernelIdeal.Tile.stored_entry (iblk m c 0 t) (iblk m c 1 t) (iblk m c 2 t) (iblk m c 3 t) p o).trans ?_
  -- row p of a channel tile is row 256·t + p of the channel; the filter tiles are the filters
  have hr : ∀ k : Fin 2049, iblk m c 0 t (ix2 p k) = V m c main_v1 (ix2 ((((cfg0.win 4).blk t).view.emb (ix2 p o)) 0) k) := fun k => by
    show V m c main_v1 (((cfg0.win 0).blk t).view.emb (ix2 p k)) = V m c main_v1 (ix2 ((((cfg0.win 4).blk t).view.emb (ix2 p o)) 0) k)
    refine congrArg (V m c main_v1) ?_
    funext a; apply Fin.ext
    match a with
    | ⟨0, _⟩ => show win0_0.index t (0 : Fin 2) * 256 + 1 * p.val = win0_4.index t (0 : Fin 2) * 256 + 1 * p.val; omega
    | ⟨1, _⟩ => show win0_0.index t (1 : Fin 2) * 2049 + 1 * k.val = k.val; omega
  have hi : ∀ k : Fin 2049, iblk m c 1 t (ix2 p k) = V m c main_v3 (ix2 ((((cfg0.win 4).blk t).view.emb (ix2 p o)) 0) k) := fun k => by
    show V m c main_v3 (((cfg0.win 1).blk t).view.emb (ix2 p k)) = V m c main_v3 (ix2 ((((cfg0.win 4).blk t).view.emb (ix2 p o)) 0) k)
    refine congrArg (V m c main_v3) ?_
    funext a; apply Fin.ext
    match a with
    | ⟨0, _⟩ => show win0_1.index t (0 : Fin 2) * 256 + 1 * p.val = win0_4.index t (0 : Fin 2) * 256 + 1 * p.val; omega
    | ⟨1, _⟩ => show win0_1.index t (1 : Fin 2) * 2049 + 1 * k.val = k.val; omega
  have hwr : ∀ k : Fin 2049, iblk m c 2 t (ix2 o k) = V m c main_v5 (ix2 ((((cfg0.win 4).blk t).view.emb (ix2 p o)) 1) k) := fun k => by
    show V m c main_v5 (((cfg0.win 2).blk t).view.emb (ix2 o k)) = V m c main_v5 (ix2 ((((cfg0.win 4).blk t).view.emb (ix2 p o)) 1) k)
    refine congrArg (V m c main_v5) ?_
    funext a; apply Fin.ext
    match a with
    | ⟨0, _⟩ => show win0_2.index t (0 : Fin 2) * 1024 + 1 * o.val = win0_4.index t (1 : Fin 2) * 1024 + 1 * o.val; omega
    | ⟨1, _⟩ => show win0_2.index t (1 : Fin 2) * 2049 + 1 * k.val = k.val; omega
  have hwi : ∀ k : Fin 2049, iblk m c 3 t (ix2 o k) = V m c main_v7 (ix2 ((((cfg0.win 4).blk t).view.emb (ix2 p o)) 1) k) := fun k => by
    show V m c main_v7 (((cfg0.win 3).blk t).view.emb (ix2 o k)) = V m c main_v7 (ix2 ((((cfg0.win 4).blk t).view.emb (ix2 p o)) 1) k)
    refine congrArg (V m c main_v7) ?_
    funext a; apply Fin.ext
    match a with
    | ⟨0, _⟩ => show win0_3.index t (0 : Fin 2) * 1024 + 1 * o.val = win0_4.index t (1 : Fin 2) * 1024 + 1 * o.val; omega
    | ⟨1, _⟩ => show win0_3.index t (1 : Fin 2) * 2049 + 1 * k.val = k.val; omega
  rw [Cert.Energy.rowDot_congr (R := 256) (R' := 16384) (iblk m c 0 t) (V m c main_v1) (iblk m c 2 t) (V m c main_v5) p _ o _ hr hwr,
    Cert.Energy.rowDot_congr (R := 256) (R' := 16384) (iblk m c 1 t) (V m c main_v3) (iblk m c 3 t) (V m c main_v7) p _ o _ hi hwi]

/-! ## The tiles cover the rows -/

/-- A pair (row, channel) is in point `t`'s tile iff each coordinate is in the tile's range on its axis. -/
theorem mem_tile (t : Fin cfg0.N) (i : S16384x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v8).slice (win0_4.rect t)).set ↔ _
  rw [View.set_slice_whole, Rect.mem_set_unit]
  exact Iff.rfl

/-- Row `r` lies in the tile of point `r / 256`. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : grid0.N = 64 := N_0
  have ht : (i 0).val / 256 < grid0.N := by omega
  obtain ⟨-, -, -, -, -, -, -, -, e40, e41⟩ := block_index ⟨(i 0).val / 256, ht⟩
  have e40' : win0_4.index ⟨(i 0).val / 256, ht⟩ (0 : Fin 2) = (i 0).val / 256 := e40
  refine ⟨⟨(i 0).val / 256, ht⟩, flush0_4 _, ?_⟩
  rw [mem_tile]
  intro a
  match a with
  | ⟨0, _⟩ => show win0_4.index ⟨(i 0).val / 256, ht⟩ (0 : Fin 2) * 256 ≤ (i 0).val ∧ (i 0).val < win0_4.index ⟨(i 0).val / 256, ht⟩ (0 : Fin 2) * 256 + 256; omega
  | ⟨1, _⟩ => show win0_4.index ⟨(i 0).val / 256, ht⟩ (1 : Fin 2) * 1024 ≤ (i 1).val ∧ (i 1).val < win0_4.index ⟨(i 0).val / 256, ht⟩ (1 : Fin 2) * 1024 + 1024; omega

/-- The result array after the run is the energy of the four matrices the region finds. -/
theorem result_found (c : Dev nD) :
    (dats m 0 c).arrAt 4 cfg0.N
      = Cert.Energy.energy (R := 16384) (V m c main_v1) (V m c main_v3) (V m c main_v5) (V m c main_v7) :=
  (dats m 0 c).arrAt_eq_of_cover 4 _ (fun t _ => written_back m c t) covered

/-! ## The four matrices, from the launch arguments -/

/-- The real channel: channel 0 of the input cut out and flattened to rows by frequencies. -/
theorem real_channel (c : Dev nD) :
    (V m c main_v1 : S16384x2049.Idx → EReal) = shapeCast _ (extractStridedSlice S16384x1x2049 ![0, 0, 0] (m ((c.tc : Thread nD τ).loc main_arg0)) slices_S16384x2x2049_S16384x1x2049_0_0_0) shapeCasts_S16384x1x2049_S16384x2049 := by
  dsimp only [V, hostOps0]; after_results; rfl

/-- The imaginary channel: channel 1 likewise. -/
theorem imag_channel (c : Dev nD) :
    (V m c main_v3 : S16384x2049.Idx → EReal) = shapeCast _ (extractStridedSlice S16384x1x2049 ![0, 1, 0] (m ((c.tc : Thread nD τ).loc main_arg0)) slices_S16384x2x2049_S16384x1x2049_0_1_0) shapeCasts_S16384x1x2049_S16384x2049 := by
  dsimp only [V, hostOps0]; after_results; rfl

/-- The real channel's filter: the sum of the two filter arguments. -/
theorem sum_filter (c : Dev nD) :
    (V m c main_v5 : S1024x2049.Idx → EReal) = addf (F := Ideal) (φ := .f32) (m ((c.tc : Thread nD τ).loc main_arg1)) (m ((c.tc : Thread nD τ).loc main_arg2)) := by
  dsimp only [V, hostOps0]; after_results; rfl

/-- The imaginary channel's filter: their difference. -/
theorem diff_filter (c : Dev nD) :
    (V m c main_v7 : S1024x2049.Idx → EReal) = subf (F := Ideal) (φ := .f32) (m ((c.tc : Thread nD τ).loc main_arg1)) (m ((c.tc : Thread nD τ).loc main_arg2)) := by
  dsimp only [V, hostOps0]; after_results; rfl

/-! ## The run, read -/

/-- The result array after the run, as a function of the launch arguments. -/
theorem result (c : Dev nD) :
    (dats m 0 c).arrAt 4 cfg0.N
      = Cert.Energy.energy (R := 16384)
          (shapeCast _ (extractStridedSlice S16384x1x2049 ![0, 0, 0] (m ((c.tc : Thread nD τ).loc main_arg0)) slices_S16384x2x2049_S16384x1x2049_0_0_0) shapeCasts_S16384x1x2049_S16384x2049)
          (shapeCast _ (extractStridedSlice S16384x1x2049 ![0, 1, 0] (m ((c.tc : Thread nD τ).loc main_arg0)) slices_S16384x2x2049_S16384x1x2049_0_1_0) shapeCasts_S16384x1x2049_S16384x2049)
          (addf (F := Ideal) (φ := .f32) (m ((c.tc : Thread nD τ).loc main_arg1)) (m ((c.tc : Thread nD τ).loc main_arg2)))
          (subf (F := Ideal) (φ := .f32) (m ((c.tc : Thread nD τ).loc main_arg1)) (m ((c.tc : Thread nD τ).loc main_arg2))) := by
  rw [result_found, real_channel, imag_channel, sum_filter, diff_filter]

/-- Every weakly fair execution of the idealized kernel's program terminates with its result at the
    energy of the two channels of the input against the sum and the difference of the filters, and with
    its arguments unchanged. -/
theorem run : θ_run defs (onTc (τ := τ) (main (F := Ideal))) ⟨m, fun _ => 0, ρ⟩ fun r => ∀ c : Dev nD,
      r.2.mem ((c.tc : Thread nD τ).loc main_v8)
        = Cert.Energy.energy (R := 16384)
          (shapeCast _ (extractStridedSlice S16384x1x2049 ![0, 0, 0] (m ((c.tc : Thread nD τ).loc main_arg0)) slices_S16384x2x2049_S16384x1x2049_0_0_0) shapeCasts_S16384x1x2049_S16384x2049)
          (shapeCast _ (extractStridedSlice S16384x1x2049 ![0, 1, 0] (m ((c.tc : Thread nD τ).loc main_arg0)) slices_S16384x2x2049_S16384x1x2049_0_1_0) shapeCasts_S16384x1x2049_S16384x2049)
          (addf (F := Ideal) (φ := .f32) (m ((c.tc : Thread nD τ).loc main_arg1)) (m ((c.tc : Thread nD τ).loc main_arg2)))
          (subf (F := Ideal) (φ := .f32) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result m c), (h c).2⟩)
    (Cert.KernelIdeal.Value.run_blocks (F := Ideal) m ρ)

end Cert.KernelIdeal.Whole

end
-- ==== Proof.RefEnergy.lean ====
/-
  The reference's result.  It cuts the two channels out of the input, forms the sum and the difference of
  the two filter arguments, contracts each channel with its filter over the frequency axis, and adds the
  two products.  Entry (b, o) of a product is the inner product of row `b` of the channel with row `o` of
  the filter, so the result is the energy of those four matrices.
-/
import proofs.«173870_j86904368267649_1_alg».proof.Proof.Gen.ReferenceIdeal.Read
import proofs.«173870_j86904368267649_1_alg».proof.Proof.Energy
import Idealize.ShloMosaic.Lib.ValueIdx
import Idealize.ShloMosaic.PureOps.Ideal.Laws

noncomputable section

open scoped BigOperators

namespace Cert.ReferenceIdeal.RefEnergy

open Cert.ReferenceIdeal Cert.ReferenceIdeal.Gen Idealize.ShloMosaic Idealize.ShloMosaic.ValueIdx

/-- A contraction of the frequency axes, at entry (b, o): the inner product of row `b` of the left operand
    with row `o` of the right one. -/
theorem contraction_entry (l : FVec Ideal S16384x2049 .f32) (r : FVec Ideal S1024x2049 .f32) (b : Fin 16384) (o : Fin 1024) :
    Host.dotGeneral (F := Ideal) dot_S16384x2049_S1024x2049_S16384x1024_1_1_0_0_n_n none l r (ix2 b o)
      = Cert.Energy.rowDot (R := 16384) l r b o := by
  unfold Cert.Energy.rowDot
  simp only [Host.dotGeneral]
  refine (Ideal.dotGeneral_apply dot_S16384x2049_S1024x2049_S16384x1024_1_1_0_0_n_n none _ l r (ix2 b o)).trans ?_
  rw [← Equiv.sum_comp (contrEquiv1 dot_S16384x2049_S1024x2049_S16384x1024_1_1_0_0_n_n 2049 rfl rfl).symm]
  refine Finset.sum_congr rfl fun k _ => ?_
  have hk := contrEquiv1_symm_val dot_S16384x2049_S1024x2049_S16384x1024_1_1_0_0_n_n 2049 rfl rfl k
  have el : dot_S16384x2049_S1024x2049_S16384x1024_1_1_0_0_n_n.lhsIdx (ix2 b o) ((contrEquiv1 dot_S16384x2049_S1024x2049_S16384x1024_1_1_0_0_n_n 2049 rfl rfl).symm k) = ix2 b k := funext fun a => Fin.ext (by
    match a with
    | ⟨0, _⟩ => exact Cert.ReferenceIdeal.Read.lhs_main_v6_0 _ _
    | ⟨1, _⟩ => exact (Cert.ReferenceIdeal.Read.lhs_main_v6_1 _ _).trans hk)
  have er : dot_S16384x2049_S1024x2049_S16384x1024_1_1_0_0_n_n.rhsIdx (ix2 b o) ((contrEquiv1 dot_S16384x2049_S1024x2049_S16384x1024_1_1_0_0_n_n 2049 rfl rfl).symm k) = ix2 o k := funext fun a => Fin.ext (by
    match a with
    | ⟨0, _⟩ => exact Cert.ReferenceIdeal.Read.rhs_main_v6_0 _ _
    | ⟨1, _⟩ => exact (Cert.ReferenceIdeal.Read.rhs_main_v6_1 _ _).trans hk)
  rw [el, er]

/-- The sum of the two contractions is the energy of their four operands. -/
theorem sum_of_contractions (xr xi : FVec Ideal S16384x2049 .f32) (wr wi : FVec Ideal S1024x2049 .f32) :
    addf (Host.dotGeneral (F := Ideal) dot_S16384x2049_S1024x2049_S16384x1024_1_1_0_0_n_n none xr wr) (Host.dotGeneral (F := Ideal) dot_S16384x2049_S1024x2049_S16384x1024_1_1_0_0_n_n none xi wi)
      = Cert.Energy.energy (R := 16384) xr xi wr wi := by
  funext i
  obtain ⟨b, o, rfl⟩ : ∃ (b : Fin 16384) (o : Fin 1024), i = ix2 b o := ⟨i 0, i 1, eq_ix2 i⟩
  refine (addf_apply _ _ _).trans ?_
  rw [contraction_entry, contraction_entry]
  rfl

end Cert.ReferenceIdeal.RefEnergy

end
-- ==== Proof.lean ====
/-
  A batch of 16384 spectra, each with a real and an imaginary channel of 2049 frequencies, is weighed by
  two filter matrices of 1024 output channels:

      energy[b, o]  =  Σ_k x[b,0,k] · (fr + fi)[o,k]  +  Σ_k x[b,1,k] · (fr − fi)[o,k].

  The kernel forms the two combined filters once, streams the batch through a grid of 64 tiles of 256
  rows, and in each tile multiplies the tile's rows of each channel by the whole combined filter for that
  channel, contracting the frequency axis, and adds the two products.  The reference contracts the whole
  channels with the same combined filters and adds.  Over the extended reals a change of float format is
  the identity and a product accumulated from zero is the plain sum of products, so both results are the
  same two inner products added, entry by entry: `Cert.Energy.energy` of the two channels and the two
  combined filters.  The two sides agree term for term; no law of arithmetic beyond the definitions is
  used, so the finiteness of the inputs is not needed for the value.

  Parts: `Proof/Energy.lean` (the expression), `Proof/KernelTile.lean` (one tile's stored entry),
  `Proof/KernelWhole.lean` (the tiles cover the result; the kernel's run), `Proof/RefEnergy.lean` (the
  reference's term is the expression).  The idealization rewrites nothing, so the kernel and its
  idealization are one text read at two instances.
-/
import proofs.«173870_j86904368267649_1_alg».proof.Defs
import proofs.«173870_j86904368267649_1_alg».proof.Proof.Gen.Kernel
import proofs.«173870_j86904368267649_1_alg».proof.Proof.Gen.Kernel.Skeleton
import proofs.«173870_j86904368267649_1_alg».proof.Proof.Gen.Kernel.Launch
import proofs.«173870_j86904368267649_1_alg».proof.Proof.Gen.Kernel.Points
import proofs.«173870_j86904368267649_1_alg».proof.Proof.Gen.Kernel.Frame
import proofs.«173870_j86904368267649_1_alg».proof.Proof.Gen.KernelIdeal
import proofs.«173870_j86904368267649_1_alg».proof.Proof.Gen.KernelIdeal.Skeleton
import proofs.«173870_j86904368267649_1_alg».proof.Proof.Gen.KernelIdeal.Launch
import proofs.«173870_j86904368267649_1_alg».proof.Proof.Gen.KernelIdeal.Points
import proofs.«173870_j86904368267649_1_alg».proof.Proof.Gen.KernelIdeal.Frame
import proofs.«173870_j86904368267649_1_alg».proof.Proof.Gen.ReferenceIdeal
import proofs.«173870_j86904368267649_1_alg».proof.Proof.Gen.Pre_finite_inputs
import proofs.«173870_j86904368267649_1_alg».proof.Proof.Gen.KernelIdeal.Value
import proofs.«173870_j86904368267649_1_alg».proof.Proof.Gen.ReferenceIdeal.Run
import proofs.«173870_j86904368267649_1_alg».proof.Proof.Gen.ReferenceIdeal.Read
import proofs.«173870_j86904368267649_1_alg».proof.Proof.KernelWhole
import proofs.«173870_j86904368267649_1_alg».proof.Proof.RefEnergy
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the energy of the input's two
    channels against the sum and the difference of the filters. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefEnergy.sum_of_contractions _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
